-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_

variable [Facts]

def fn {F : FTy → Type} [FloatOps F] (main_arg0 : FVec F S8x32x32x32 .f32) (main_arg1 : FVec F S1x1x1x288x64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  main_v8
-- ==== Kernel.lean ====
abbrev S8x32x32x32 : Shape := ⟨4, ![8, 32, 32, 32]⟩
abbrev S1x1x1x288x64 : Shape := ⟨5, ![1, 1, 1, 288, 64]⟩
abbrev S288x64 : Shape := ⟨2, ![288, 64]⟩
abbrev S8x30x30x64 : Shape := ⟨4, ![8, 30, 30, 64]⟩
abbrev S1x32x32x32 : Shape := ⟨4, ![1, 32, 32, 32]⟩
abbrev S1x30x30x64 : Shape := ⟨4, ![1, 30, 30, 64]⟩
abbrev S32x32x32 : Shape := ⟨3, ![32, 32, 32]⟩
abbrev S30x30x32 : Shape := ⟨3, ![30, 30, 32]⟩
abbrev S32x64 : Shape := ⟨2, ![32, 64]⟩
abbrev S30x30x32x1 : Shape := ⟨4, ![30, 30, 32, 1]⟩
abbrev S1x1x32x64 : Shape := ⟨4, ![1, 1, 32, 64]⟩
abbrev S30x30x32x64 : Shape := ⟨4, ![30, 30, 32, 64]⟩
abbrev S30x30x64 : Shape := ⟨3, ![30, 30, 64]⟩

abbrev nBuf : Space → Nat
  | .hbm => 4
  | .vmem => 5
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S288x64, .f32⟩
  | .hbm, ⟨3, _⟩ => ⟨S8x30x30x64, .f32⟩
  | .local _ .vmem, ⟨0, _⟩ => ⟨S1x32x32x32, .f32⟩
  | .local _ .vmem, ⟨1, _⟩ => ⟨S1x32x32x32, .f32⟩
  | .local _ .vmem, ⟨2, _⟩ => ⟨S288x64, .f32⟩
  | .local _ .vmem, ⟨3, _⟩ => ⟨S1x30x30x64, .f32⟩
  | .local _ .vmem, ⟨4, _⟩ => ⟨S1x30x30x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x30x30x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1x1x288x64_S288x64 : S1x1x1x288x64.ShapeCasts S288x64
  inb_S1x32x32x32_S1x32x32x32_0_0_0_0 : ∀ a, (![0, 0, 0, 0] : Fin 4 → Nat) a + S1x32x32x32.size a ≤ S1x32x32x32.size a
  h_S1x32x32x32 : 0 < S1x32x32x32.numel
  shapeCasts_S1x32x32x32_S32x32x32 : S1x32x32x32.ShapeCasts S32x32x32
  slices_S32x32x32_o0_0_0_S30x30x32 : S32x32x32.Slices ![0, 0, 0] S30x30x32
  inb_S288x64_S32x64_0_0 : ∀ a, (![0, 0] : Fin 2 → Nat) a + S32x64.size a ≤ S288x64.size a
  h_S32x64 : 0 < S32x64.numel
  shapeCasts_S32x64_S32x64 : S32x64.ShapeCasts S32x64
  shapeCasts_S30x30x32_S30x30x32x1 : S30x30x32.ShapeCasts S30x30x32x1
  shapeCasts_S32x64_S1x1x32x64 : S32x64.ShapeCasts S1x1x32x64
  broadcasts_S30x30x32x1_S30x30x32x64 : S30x30x32x1.Broadcasts S30x30x32x64
  broadcasts_S1x1x32x64_S30x30x32x64 : S1x1x32x64.Broadcasts S30x30x32x64
  reduces_S30x30x32x64_S30x30x64 : S30x30x32x64.Reduces [2] S30x30x64
  slices_S32x32x32_o0_1_0_S30x30x32 : S32x32x32.Slices ![0, 1, 0] S30x30x32
  inb_S288x64_S32x64_32_0 : ∀ a, (![32, 0] : Fin 2 → Nat) a + S32x64.size a ≤ S288x64.size a
  slices_S32x32x32_o0_2_0_S30x30x32 : S32x32x32.Slices ![0, 2, 0] S30x30x32
  inb_S288x64_S32x64_64_0 : ∀ a, (![64, 0] : Fin 2 → Nat) a + S32x64.size a ≤ S288x64.size a
  slices_S32x32x32_o1_0_0_S30x30x32 : S32x32x32.Slices ![1, 0, 0] S30x30x32
  inb_S288x64_S32x64_96_0 : ∀ a, (![96, 0] : Fin 2 → Nat) a + S32x64.size a ≤ S288x64.size a
  slices_S32x32x32_o1_1_0_S30x30x32 : S32x32x32.Slices ![1, 1, 0] S30x30x32
  inb_S288x64_S32x64_128_0 : ∀ a, (![128, 0] : Fin 2 → Nat) a + S32x64.size a ≤ S288x64.size a
  slices_S32x32x32_o1_2_0_S30x30x32 : S32x32x32.Slices ![1, 2, 0] S30x30x32
  inb_S288x64_S32x64_160_0 : ∀ a, (![160, 0] : Fin 2 → Nat) a + S32x64.size a ≤ S288x64.size a
  slices_S32x32x32_o2_0_0_S30x30x32 : S32x32x32.Slices ![2, 0, 0] S30x30x32
  inb_S288x64_S32x64_192_0 : ∀ a, (![192, 0] : Fin 2 → Nat) a + S32x64.size a ≤ S288x64.size a
  slices_S32x32x32_o2_1_0_S30x30x32 : S32x32x32.Slices ![2, 1, 0] S30x30x32
  inb_S288x64_S32x64_224_0 : ∀ a, (![224, 0] : Fin 2 → Nat) a + S32x64.size a ≤ S288x64.size a
  slices_S32x32x32_o2_2_0_S30x30x32 : S32x32x32.Slices ![2, 2, 0] S30x30x32
  inb_S288x64_S32x64_256_0 : ∀ a, (![256, 0] : Fin 2 → Nat) a + S32x64.size a ≤ S288x64.size a
  inb_S1x30x30x64_S1x30x30x64_0_0_0_0 : ∀ a, (![0, 0, 0, 0] : Fin 4 → Nat) a + S1x30x30x64.size a ≤ S1x30x30x64.size a
  h_S1x30x30x64 : 0 < S1x30x30x64.numel
  shapeCasts_S1x30x30x64_S30x30x64 : S1x30x30x64.ShapeCasts S30x30x64
  shapeCasts_S30x30x64_S1x30x30x64 : S30x30x64.ShapeCasts S1x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x32.size a ≤ S8x32x32x32.size a
  hwx0_0 : ∀ i : grid0.Coords, EltTy.bits .f32 = 32 ∨ (Rect.block (s := S8x32x32x32) S1x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .f32 = 32 ∨ (Rect.block (s := S288x64) S288x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30x30x64.size a ≤ S8x30x30x64.size a
  hwx0_2 : ∀ i : grid0.Coords, EltTy.bits .f32 = 32 ∨ (Rect.block (s := S8x30x30x64) S1x30x30x64.size (cc0_transform_2 i) (hinb0_2 i)).WholeWords (EltTy.packing .f32)

variable [Facts₀]

abbrev win0_0 : Pipeline.Window sig grid0 :=
  Pipeline.Window.ofSpec (Memref.whole main_arg0) S1x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x30x30x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S8x30x30x32 : Shape := ⟨4, ![8, 30, 30, 32]⟩
abbrev S8x30x30x288 : Shape := ⟨4, ![8, 30, 30, 288]⟩
abbrev S8x30x30x288x1 : Shape := ⟨5, ![8, 30, 30, 288, 1]⟩
abbrev S288x64 : Shape := ⟨2, ![288, 64]⟩
abbrev S8x30x30x288x64 : Shape := ⟨5, ![8, 30, 30, 288, 64]⟩
abbrev S_ : Shape := ⟨0, ![]⟩
abbrev S8x30x30x64 : Shape := ⟨4, ![8, 30, 30, 64]⟩

abbrev nBuf : Space → Nat
  | .hbm => 23
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S8x30x30x32, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x288, .f32⟩
  | .hbm, ⟨12, _⟩ => ⟨S8x30x30x288x1, .f32⟩
  | .hbm, ⟨13, _⟩ => ⟨S288x64, .f32⟩
  | .hbm, ⟨14, _⟩ => ⟨S1x1x1x288x64, .f32⟩
  | .hbm, ⟨15, _⟩ => ⟨S8x30x30x288x64, .f32⟩
  | .hbm, ⟨16, _⟩ => ⟨S8x30x30x288x64, .f32⟩
  | .hbm, ⟨17, _⟩ => ⟨S8x30x30x288x64, .f32⟩
  | .hbm, ⟨18, _⟩ => ⟨S_, .f32⟩
  | .hbm, ⟨19, _⟩ => ⟨S8x30x30x64, .f32⟩
  | .hbm, ⟨20, _⟩ => ⟨S_, .f32⟩
  | .hbm, ⟨21, _⟩ => ⟨S8x30x30x64, .f32⟩
  | .hbm, ⟨22, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  bcast_S8x30x30x288_S8x30x30x288x1_0_1_2_3 : S8x30x30x288.BroadcastsInDim S8x30x30x288x1 (![0, 1, 2, 3] : Fin 4 → Fin S8x30x30x288x1.rank)
  shapeCasts_S1x1x1x288x64_S288x64 : S1x1x1x288x64.ShapeCasts S288x64
  bcast_S288x64_S1x1x1x288x64_3_4 : S288x64.BroadcastsInDim S1x1x1x288x64 (![3, 4] : Fin 2 → Fin S1x1x1x288x64.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel

variable [Facts₀]

class Facts : Prop extends Facts₀ where

variable [Facts]
-- ==== Proof.LibFoldBlocks.lean ====
/-
  General facts about folds of `max` and `min`, for comparing a reduction taken in one pass with the same reduction
  taken block by block.

  * Over a linear order, the fold of `max` (of `min`) from a start value `b` over `Fin N`, `N = 9 · n`, equals the
    maximum (minimum) of the nine folds from `b` over the consecutive blocks of length `n`. Index `k` of `Fin N` is entry
    `k % n` of block `k / n`; a maximum is its least upper bound and a minimum its greatest lower bound, so both sides
    have the same upper (lower) bounds and nothing is asked of `b`.
  * At the ideal values a `vector.multi_reduction <minimumf>` over one axis, read at a result index, is the fold of `min`
    from the accumulator's value over that axis's coordinates (the statement for `<maximumf>` is the library's).
-/
import Idealize.ShloMosaic.PureOps.Ideal.Laws
import Mathlib.Data.Finset.Fold

namespace FoldBlocks

section Order

variable {α : Type*} [LinearOrder α]

/-- Nine values combined from the left: `op (… (op (M 0) (M 1)) …) (M 8)`. -/
def chain9 (op : α → α → α) (M : Fin 9 → α) : α :=
  op (op (op (op (op (op (op (op (M 0) (M 1)) (M 2)) (M 3)) (M 4)) (M 5)) (M 6)) (M 7)) (M 8)

theorem fin9_cases (t : Fin 9) : t = 0 ∨ t = 1 ∨ t = 2 ∨ t = 3 ∨ t = 4 ∨ t = 5 ∨ t = 6 ∨ t = 7 ∨ t = 8 := by
  revert t; decide

/-- Each of the nine values is below their maximum. -/
theorem le_chain9_max (M : Fin 9 → α) (t : Fin 9) : M t ≤ chain9 max M := by
  unfold chain9
  rcases fin9_cases t with rfl | rfl | rfl | rfl | rfl | rfl | rfl | rfl | rfl <;>
    simp only [le_max_iff, le_refl, true_or, or_true]

/-- A bound of all nine values bounds their maximum. -/
theorem chain9_max_le (M : Fin 9 → α) (x : α) (h : ∀ t, M t ≤ x) : chain9 max M ≤ x :=
  max_le (max_le (max_le (max_le (max_le (max_le (max_le (max_le (h 0) (h 1)) (h 2)) (h 3)) (h 4)) (h 5)) (h 6)) (h 7)) (h 8)

/-- The minimum of the nine values is below each. -/
theorem chain9_min_le (M : Fin 9 → α) (t : Fin 9) : chain9 min M ≤ M t := by
  unfold chain9
  rcases fin9_cases t with rfl | rfl | rfl | rfl | rfl | rfl | rfl | rfl | rfl <;>
    simp only [min_le_iff, le_refl, true_or, or_true]

/-- A lower bound of all nine values is below their minimum. -/
theorem le_chain9_min (M : Fin 9 → α) (x : α) (h : ∀ t, x ≤ M t) : x ≤ chain9 min M :=
  le_min (le_min (le_min (le_min (le_min (le_min (le_min (le_min (h 0) (h 1)) (h 2)) (h 3)) (h 4)) (h 5)) (h 6)) (h 7)) (h 8)

/-- Entry `c` of block `t`, as an index of `Fin N`, `N = 9 · n`: position `t · n + c`. -/
def blockIdx {N n : ℕ} (hN : N = 9 * n) (t : Fin 9) (c : Fin n) : Fin N :=
  ⟨t.val * n + c.val, by
    have h1 : (t.val + 1) * n ≤ 9 * n := Nat.mul_le_mul_right n t.isLt
    have h2 := c.isLt
    rw [Nat.add_mul, Nat.one_mul] at h1
    omega⟩

@[simp] theorem blockIdx_val {N n : ℕ} (hN : N = 9 * n) (t : Fin 9) (c : Fin n) :
    (blockIdx hN t c).val = t.val * n + c.val := rfl

/-- Every index of `Fin N` is an entry of one of the nine blocks: entry `k % n` of block `k / n`. -/
theorem exists_blockIdx {N n : ℕ} (hN : N = 9 * n) (k : Fin N) : ∃ (t : Fin 9) (c : Fin n), k = blockIdx hN t c := by
  have hk := k.isLt
  have hn : 0 < n := by
    rcases Nat.eq_zero_or_pos n with h | h
    · subst h; omega
    · exact h
  refine ⟨⟨k.val / n, ?_⟩, ⟨k.val % n, Nat.mod_lt _ hn⟩, Fin.ext ?_⟩
  · rw [Nat.div_lt_iff_lt_mul hn]; omega
  · show k.val = k.val / n * n + k.val % n
    exact (Nat.div_add_mod' k.val n).symm

/-- THE MAXIMUM BLOCK BY BLOCK: the fold of `max` from `b` over `Fin (9 · n)` is the maximum of the nine folds from `b` over
    the blocks. -/
theorem fold_max_nine_blocks {N n : ℕ} (hN : N = 9 * n) (b : α) (g : Fin N → α) :
    Finset.univ.fold max b g
      = chain9 max fun t => Finset.univ.fold max b fun c : Fin n => g (blockIdx hN t c) := by
  let M : Fin 9 → α := fun t => Finset.univ.fold max b fun c : Fin n => g (blockIdx hN t c)
  show _ = chain9 max M
  have hb : ∀ t, b ≤ M t := fun t => (Finset.le_fold_max b).2 (Or.inl le_rfl)
  have hg : ∀ t c, g (blockIdx hN t c) ≤ M t := fun t c =>
    (Finset.le_fold_max _).2 (Or.inr ⟨c, Finset.mem_univ c, le_rfl⟩)
  apply le_antisymm
  · rw [Finset.fold_max_le]
    refine ⟨(hb 0).trans (le_chain9_max M 0), fun k _ => ?_⟩
    obtain ⟨t, c, rfl⟩ := exists_blockIdx hN k
    exact (hg t c).trans (le_chain9_max M t)
  · refine chain9_max_le M _ fun t => ?_
    show Finset.univ.fold max b (fun c : Fin n => g (blockIdx hN t c)) ≤ _
    rw [Finset.fold_max_le]
    exact ⟨(Finset.le_fold_max b).2 (Or.inl le_rfl),
      fun c _ => (Finset.le_fold_max _).2 (Or.inr ⟨_, Finset.mem_univ _, le_rfl⟩)⟩

/-- THE MINIMUM BLOCK BY BLOCK: the same for `min`. -/
theorem fold_min_nine_blocks {N n : ℕ} (hN : N = 9 * n) (b : α) (g : Fin N → α) :
    Finset.univ.fold min b g
      = chain9 min fun t => Finset.univ.fold min b fun c : Fin n => g (blockIdx hN t c) := by
  let M : Fin 9 → α := fun t => Finset.univ.fold min b fun c : Fin n => g (blockIdx hN t c)
  show _ = chain9 min M
  have hb : ∀ t, M t ≤ b := fun t => (Finset.fold_min_le b).2 (Or.inl le_rfl)
  have hg : ∀ t c, M t ≤ g (blockIdx hN t c) := fun t c =>
    (Finset.fold_min_le _).2 (Or.inr ⟨c, Finset.mem_univ c, le_rfl⟩)
  apply le_antisymm
  · refine le_chain9_min M _ fun t => ?_
    show _ ≤ Finset.univ.fold min b (fun c : Fin n => g (blockIdx hN t c))
    rw [Finset.le_fold_min]
    exact ⟨(Finset.fold_min_le b).2 (Or.inl le_rfl),
      fun c _ => (Finset.fold_min_le _).2 (Or.inr ⟨_, Finset.mem_univ _, le_rfl⟩)⟩
  · rw [Finset.le_fold_min]
    refine ⟨(chain9_min_le M 0).trans (hb 0), fun k _ => ?_⟩
    obtain ⟨t, c, rfl⟩ := exists_blockIdx hN k
    exact (chain9_min_le M t).trans (hg t c)

end Order

section Ideal

open Idealize.ShloMosaic

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Ideal

end FoldBlocks
-- ==== Proof.KernelTap.lean ====
/-
  One tap of the tropical convolution, read at an index.

  For a tap at spatial offset (oi, oj) the body forms the rank-4 tensor
      s[p, q, c, f] = x[0, p + oi, q + oj, c] + w[c, f]
  from the image block `x` (a [1, 32, 32, 32] block: the offset window of 30 × 30 positions, a unit axis appended, broadcast
  along the filters) and a [32, 64] chunk `w` of the weights (two unit axes prepended, broadcast along the positions), and
  reduces it over the channel axis `c` with `max` from −∞ and with `min` from +∞. Read at (p, q, f) these reductions are
  the folds of `max` and `min` over the 32 channels of `x[0, p + oi, q + oj, c] + w[c, f]`.
-/
import proofs.«164949_j21947282883034_1_alg».proof.KernelIdeal
import proofs.«164949_j21947282883034_1_alg».proof.Proof.LibFoldBlocks
import Idealize.ShloMosaic.Lib.Pipeline.Value
import Idealize.ShloMosaic.Lib.ValueIdx
import Idealize.ShloMosaic.PureOps.Ideal.Laws

noncomputable section

namespace Cert.KernelIdeal.Tap

open Cert.KernelIdeal Idealize.ShloMosaic Idealize.ShloMosaic.ValueIdx

/-- The tap's summand at (p, q, c, f): the image block at the offset position and channel `c`, plus the weight chunk at
    (c, f). Each layout operation is read at the index it takes its element from. -/
theorem summand_apply (P0 : FVec Ideal S1x32x32x32 .f32) (Pw : FVec Ideal S32x64 .f32) (oi oj : ℕ)
    (h1 : S1x32x32x32.ShapeCasts S32x32x32) (hs : S32x32x32.Slices ![oi, oj, 0] S30x30x32)
    (h2 : S30x30x32.ShapeCasts S30x30x32x1) (h3 : S30x30x32x1.Broadcasts S30x30x32x64)
    (h4 : S32x64.ShapeCasts S32x64) (h5 : S32x64.ShapeCasts S1x1x32x64) (h6 : S1x1x32x64.Broadcasts S30x30x32x64)
    (p q : Fin 30) (c : Fin 32) (f : Fin 64) (hp : p.val + oi < 32) (hq : q.val + oj < 32) :
    addf (F := Ideal) (broadcastTo S30x30x32x64 (shapeCast S30x30x32x1 (extractStridedSlice S30x30x32 ![oi, oj, 0] (shapeCast S32x32x32 P0 h1) hs) h2) h3)
        (broadcastTo S30x30x32x64 (shapeCast S1x1x32x64 (shapeCast S32x64 Pw h4) h5) h6) (ix4 p q c f)
      = P0 (ix4 (0 : Fin 1) (⟨p.val + oi, hp⟩ : Fin 32) (⟨q.val + oj, hq⟩ : Fin 32) c) + Pw (ix2 c f) := by
  refine congrArg₂ (· + ·) ?_ ?_
  · -- the image side: broadcast along f, drop the appended unit axis, the offset window, drop the block's unit axis
    refine (broadcastTo_apply _ h3 (ix4 p q c f) (ix4 p q c (0 : Fin 1)) (fun a => match a with
      | ⟨0, _⟩ => by show p.val = if (30 : Nat) = 1 then 0 else p.val; rw [if_neg (by decide)]
      | ⟨1, _⟩ => by show q.val = if (30 : Nat) = 1 then 0 else q.val; rw [if_neg (by decide)]
      | ⟨2, _⟩ => by show c.val = if (32 : Nat) = 1 then 0 else c.val; rw [if_neg (by decide)]
      | ⟨3, _⟩ => by show 0 = if (1 : Nat) = 1 then 0 else f.val; rw [if_pos rfl])).trans ?_
    refine (shapeCast_apply _ h2 (ix4 p q c (0 : Fin 1)) (ix3 p q c) (by
      rw [Shape.rowMajor_val_three, Shape.rowMajor_val_four]
      show (p.val * 30 + q.val) * 32 + c.val = ((p.val * 30 + q.val) * 32 + c.val) * 1 + 0; omega)).trans ?_
    refine (extractStridedSlice_apply _ _ hs (ix3 p q c)
      (ix3 (⟨p.val + oi, hp⟩ : Fin 32) (⟨q.val + oj, hq⟩ : Fin 32) c) (fun a => match a with
      | ⟨0, _⟩ => by show p.val + oi = oi + p.val; omega
      | ⟨1, _⟩ => by show q.val + oj = oj + q.val; omega
      | ⟨2, _⟩ => by show c.val = 0 + c.val; omega)).trans ?_
    exact shapeCast_apply _ h1 _ (ix4 (0 : Fin 1) (⟨p.val + oi, hp⟩ : Fin 32) (⟨q.val + oj, hq⟩ : Fin 32) c) (by
      rw [Shape.rowMajor_val_four, Shape.rowMajor_val_three]
      show ((0 * 32 + (p.val + oi)) * 32 + (q.val + oj)) * 32 + c.val = ((p.val + oi) * 32 + (q.val + oj)) * 32 + c.val; omega)
  · -- the weight side: broadcast along the positions, drop the two prepended unit axes
    refine (broadcastTo_apply _ h6 (ix4 p q c f) (ix4 (0 : Fin 1) (0 : Fin 1) c f) (fun a => match a with
      | ⟨0, _⟩ => by show 0 = if (1 : Nat) = 1 then 0 else p.val; rw [if_pos rfl]
      | ⟨1, _⟩ => by show 0 = if (1 : Nat) = 1 then 0 else q.val; rw [if_pos rfl]
      | ⟨2, _⟩ => by show c.val = if (32 : Nat) = 1 then 0 else c.val; rw [if_neg (by decide)]
      | ⟨3, _⟩ => by show f.val = if (64 : Nat) = 1 then 0 else f.val; rw [if_neg (by decide)])).trans ?_
    refine (shapeCast_apply _ h5 (ix4 (0 : Fin 1) (0 : Fin 1) c f) (ix2 c f) (by
      rw [Shape.rowMajor_val_two, Shape.rowMajor_val_four]
      show c.val * 64 + f.val = ((0 * 1 + 0) * 32 + c.val) * 64 + f.val; omega)).trans ?_
    rw [shapeCast_self]

/-- The channel coordinate inserted into (p, q, f) on axis 2. -/
theorem lift_eq (hr : S30x30x32x64.Reduces [2] S30x30x64) (p q : Fin 30) (f : Fin 64) (c : Fin 32) :
    hr.lift (ix3 p q f) c = ix4 p q c f :=
  funext fun a => Fin.ext (by match a with | ⟨0, _⟩ => rfl | ⟨1, _⟩ => rfl | ⟨2, _⟩ => rfl | ⟨3, _⟩ => rfl)

/-- The tap's maximum over the channels, at (p, q, f). -/
theorem max_apply (P0 : FVec Ideal S1x32x32x32 .f32) (Pw : FVec Ideal S32x64 .f32) (oi oj : ℕ)
    (h1 : S1x32x32x32.ShapeCasts S32x32x32) (hs : S32x32x32.Slices ![oi, oj, 0] S30x30x32)
    (h2 : S30x30x32.ShapeCasts S30x30x32x1) (h3 : S30x30x32x1.Broadcasts S30x30x32x64)
    (h4 : S32x64.ShapeCasts S32x64) (h5 : S32x64.ShapeCasts S1x1x32x64) (h6 : S1x1x32x64.Broadcasts S30x30x32x64)
    (hr : S30x30x32x64.Reduces [2] S30x30x64) (hφ : FKind.Formats .f32) (hacc : (0xFF800000#32 : BitVec 32) = FKind.maximumf.neutral .f32 hφ)
    (p q : Fin 30) (f : Fin 64) (hoi : oi ≤ 2) (hoj : oj ≤ 2) :
    multiReduction (F := Ideal) .maximumf [2] S30x30x64
        (addf (F := Ideal) (broadcastTo S30x30x32x64 (shapeCast S30x30x32x1 (extractStridedSlice S30x30x32 ![oi, oj, 0] (shapeCast S32x32x32 P0 h1) hs) h2) h3)
          (broadcastTo S30x30x32x64 (shapeCast S1x1x32x64 (shapeCast S32x64 Pw h4) h5) h6)) 0xFF800000#32 hr hφ hacc (ix3 p q f)
      = (Finset.univ : Finset (Fin 32)).fold max (FloatOps.ofBits (F := Ideal) .f32 0xFF800000#32)
          (fun c => P0 (ix4 (0 : Fin 1) (⟨p.val + oi, by have := p.isLt; omega⟩ : Fin 32) (⟨q.val + oj, by have := q.isLt; omega⟩ : Fin 32) c) + Pw (ix2 c f)) := by
  rw [Ideal.multiReduction_maximumf_single]
  refine congrArg (fun g => (Finset.univ : Finset (Fin 32)).fold max _ g) (funext fun (c : Fin 32) => ?_)
  exact Eq.trans (congrArg (addf (F := Ideal) _ _) (lift_eq hr p q f c)) (summand_apply P0 Pw oi oj h1 hs h2 h3 h4 h5 h6 p q c f _ _)

/-- The tap's minimum over the channels, at (p, q, f). -/
theorem min_apply (P0 : FVec Ideal S1x32x32x32 .f32) (Pw : FVec Ideal S32x64 .f32) (oi oj : ℕ)
    (h1 : S1x32x32x32.ShapeCasts S32x32x32) (hs : S32x32x32.Slices ![oi, oj, 0] S30x30x32)
    (h2 : S30x30x32.ShapeCasts S30x30x32x1) (h3 : S30x30x32x1.Broadcasts S30x30x32x64)
    (h4 : S32x64.ShapeCasts S32x64) (h5 : S32x64.ShapeCasts S1x1x32x64) (h6 : S1x1x32x64.Broadcasts S30x30x32x64)
    (hr : S30x30x32x64.Reduces [2] S30x30x64) (hφ : FKind.Formats .f32) (hacc : (0x7F800000#32 : BitVec 32) = FKind.minimumf.neutral .f32 hφ)
    (p q : Fin 30) (f : Fin 64) (hoi : oi ≤ 2) (hoj : oj ≤ 2) :
    multiReduction (F := Ideal) .minimumf [2] S30x30x64
        (addf (F := Ideal) (broadcastTo S30x30x32x64 (shapeCast S30x30x32x1 (extractStridedSlice S30x30x32 ![oi, oj, 0] (shapeCast S32x32x32 P0 h1) hs) h2) h3)
          (broadcastTo S30x30x32x64 (shapeCast S1x1x32x64 (shapeCast S32x64 Pw h4) h5) h6)) 0x7F800000#32 hr hφ hacc (ix3 p q f)
      = (Finset.univ : Finset (Fin 32)).fold min (FloatOps.ofBits (F := Ideal) .f32 0x7F800000#32)
          (fun c => P0 (ix4 (0 : Fin 1) (⟨p.val + oi, by have := p.isLt; omega⟩ : Fin 32) (⟨q.val + oj, by have := q.isLt; omega⟩ : Fin 32) c) + Pw (ix2 c f)) := by
  rw [FoldBlocks.multiReduction_minimumf_single]
  refine congrArg (fun g => (Finset.univ : Finset (Fin 32)).fold min _ g) (funext fun (c : Fin 32) => ?_)
  exact Eq.trans (congrArg (addf (F := Ideal) _ _) (lift_eq hr p q f c)) (summand_apply P0 Pw oi oj h1 hs h2 h3 h4 h5 h6 p q c f _ _)

end Cert.KernelIdeal.Tap

end
-- ==== Proof.Spec.lean ====
/-
  The specification: the tropical 3 × 3 convolution as one function of its arguments.

  For an image `x` of shape [8, 32, 32, 32] (batch, row, column, channel) and weights `w` of shape [288, 64]
  (patch entry, filter), the patch at output position (b, p, q) has the 288 entries
      x[b, p + i, q + j, c],   k = 32 · (3 · i + j) + c,   i, j ∈ {0, 1, 2},  c < 32,
  and the result at (b, p, q, f) is
      max_k (patch[k] + w[k, f])  −  min_k (patch[k] + w[k, f]).
  The 288 entries are taken tap by tap: tap `t = 3 · i + j` holds the 32 entries `k = 32 · t + c`, so `i = t / 3` and
  `j = t % 3`. The maximum is written as the maximum over the nine taps of the maximum over a tap's channels, each
  folded from the same start value (−∞, as the word both programs print), the minimum likewise from +∞. Both programs
  are shown to compute this function: the kernel takes the taps one at a time, the reference folds over all 288 entries
  at once, which is the same maximum and minimum (a fold over nine blocks is the fold of the blocks' folds).
-/
import proofs.«164949_j21947282883034_1_alg».proof.Proof.LibFoldBlocks
import Idealize.ShloMosaic.PureOps.Ideal
import Idealize.ShloMosaic.Lib.ValueIdx

noncomputable section

namespace Cert.TropConv

open Idealize.ShloMosaic Idealize.ShloMosaic.ValueIdx FoldBlocks

abbrev SX : Shape := ⟨4, ![8, 32, 32, 32]⟩
abbrev SW : Shape := ⟨2, ![288, 64]⟩
abbrev SO : Shape := ⟨4, ![8, 30, 30, 64]⟩

/-- 288 patch entries are nine taps of 32 channels. -/
theorem h288 : 288 = 9 * 32 := rfl

/-- Entry `c` of tap `t` of the patch at (b, p, q), plus its weight for filter `f`:
    `x[b, p + t / 3, q + t % 3, c] + w[32 · t + c, f]`. -/
def entry (x : FVec Ideal SX .f32) (w : FVec Ideal SW .f32) (b : Fin 8) (p q : Fin 30) (f : Fin 64) (t : Fin 9) (c : Fin 32) : EReal :=
  x (ix4 b (⟨p.val + t.val / 3, by have := p.isLt; have := t.isLt; omega⟩ : Fin 32)
      (⟨q.val + t.val % 3, by have := q.isLt; have := t.isLt; omega⟩ : Fin 32) c)
    + w (ix2 (blockIdx h288 t c) f)

/-- The start value of the maxima: the word `0xFF800000` (−∞) at the ideal values. -/
abbrev negInf : EReal := FloatOps.ofBits (F := Ideal) .f32 0xFF800000#32
/-- The start value of the minima: the word `0x7F800000` (+∞) at the ideal values. -/
abbrev posInf : EReal := FloatOps.ofBits (F := Ideal) .f32 0x7F800000#32

/-- The largest of the patch's 288 sums, tap by tap. -/
def tropMax (x : FVec Ideal SX .f32) (w : FVec Ideal SW .f32) (b : Fin 8) (p q : Fin 30) (f : Fin 64) : EReal :=
  chain9 max fun t => (Finset.univ : Finset (Fin 32)).fold max negInf (entry x w b p q f t)

/-- The smallest of the patch's 288 sums, tap by tap. -/
def tropMin (x : FVec Ideal SX .f32) (w : FVec Ideal SW .f32) (b : Fin 8) (p q : Fin 30) (f : Fin 64) : EReal :=
  chain9 min fun t => (Finset.univ : Finset (Fin 32)).fold min posInf (entry x w b p q f t)

/-- THE RESULT: at (b, p, q, f), the spread of the patch's sums. -/
def G (x : FVec Ideal SX .f32) (w : FVec Ideal SW .f32) : FVec Ideal SO .f32 := fun o =>
  tropMax x w (o 0) (o 1) (o 2) (o 3) - tropMin x w (o 0) (o 1) (o 2) (o 3)

end Cert.TropConv

end
-- ==== Proof.KernelValue.lean ====
/-
  The kernel computes the specification.

  At grid point `t` the body holds batch element `t` of the image (a [1, 32, 32, 32] block) and the whole [288, 64]
  weight array. It takes the nine taps one at a time — tap `k = 3 · i + j` pairs the image window at offset (i, j) with
  weight rows 32 k … 32 k + 31 —, reduces each over the channels with `max` and with `min`, folds the nine results
  with `max` and `min`, and stores their difference. So what point `t` writes back is block `t` of the specification `G` of
  the image and the weight array as the region finds them; the eight blocks tile the output, which therefore ends
  holding `G`. The weight array the region finds is the host's reshape of the weights argument.
-/
import proofs.«164949_j21947282883034_1_alg».proof.Proof.KernelIdealBlocks
import proofs.«164949_j21947282883034_1_alg».proof.Proof.KernelTap
import proofs.«164949_j21947282883034_1_alg».proof.Proof.Spec
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx FoldBlocks Cert.TropConv
open Idealize.ShloMosaic.Pipeline (Dat)

/-! ## The body's stored value at an index -/

/-- One tap at (y₁, y₂, y₃): the largest, over the 32 channels, of `P0[0, y₁ + oi, y₂ + oj, c] + Pw[c, y₃]`. -/
def tapMax (P0 : FVec Ideal S1x32x32x32 .f32) (Pw : FVec Ideal S32x64 .f32) (oi oj : ℕ) (hoi : oi ≤ 2) (hoj : oj ≤ 2)
    (y1 y2 : Fin 30) (y3 : Fin 64) : EReal :=
  (Finset.univ : Finset (Fin 32)).fold max negInf fun c =>
    P0 (ix4 (0 : Fin 1) (⟨y1.val + oi, by have := y1.isLt; omega⟩ : Fin 32) (⟨y2.val + oj, by have := y2.isLt; omega⟩ : Fin 32) c) + Pw (ix2 c y3)

/-- One tap at (y₁, y₂, y₃): the smallest of the same sums. -/
def tapMin (P0 : FVec Ideal S1x32x32x32 .f32) (Pw : FVec Ideal S32x64 .f32) (oi oj : ℕ) (hoi : oi ≤ 2) (hoj : oj ≤ 2)
    (y1 y2 : Fin 30) (y3 : Fin 64) : EReal :=
  (Finset.univ : Finset (Fin 32)).fold min posInf fun c =>
    P0 (ix4 (0 : Fin 1) (⟨y1.val + oi, by have := y1.isLt; omega⟩ : Fin 32) (⟨y2.val + oj, by have := y2.isLt; omega⟩ : Fin 32) c) + Pw (ix2 c y3)

/-- A tap's rank-4 tensor of sums as the body builds it: the image window at offset (oi, oj) with a unit axis appended
    and broadcast along the filters, plus the weight chunk with two unit axes prepended and broadcast along the positions. -/
abbrev summand (P0 : FVec Ideal S1x32x32x32 .f32) (Pw : FVec Ideal S32x64 .f32) (oi oj : ℕ)
    (hs : S32x32x32.Slices ![oi, oj, 0] S30x30x32) : FVec Ideal S30x30x32x64 .f32 :=
  addf (F := Ideal)
    (broadcastTo S30x30x32x64 (shapeCast S30x30x32x1 (extractStridedSlice S30x30x32 ![oi, oj, 0]
      (shapeCast S32x32x32 P0 shapeCasts_S1x32x32x32_S32x32x32) hs) shapeCasts_S30x30x32_S30x30x32x1) broadcasts_S30x30x32x1_S30x30x32x64)
    (broadcastTo S30x30x32x64 (shapeCast S1x1x32x64 (shapeCast S32x64 Pw shapeCasts_S32x64_S32x64) shapeCasts_S32x64_S1x1x32x64)
      broadcasts_S1x1x32x64_S30x30x32x64)

/-- The tap's maxima over the channel axis, as the body takes them. -/
abbrev redMax (P0 : FVec Ideal S1x32x32x32 .f32) (Pw : FVec Ideal S32x64 .f32) (oi oj : ℕ)
    (hs : S32x32x32.Slices ![oi, oj, 0] S30x30x32) : FVec Ideal S30x30x64 .f32 :=
  multiReduction (F := Ideal) .maximumf [2] S30x30x64 (summand P0 Pw oi oj hs) 0xFF800000#32 reduces_S30x30x32x64_S30x30x64 (.inl rfl) rfl

/-- The tap's minima over the channel axis, as the body takes them. -/
abbrev redMin (P0 : FVec Ideal S1x32x32x32 .f32) (Pw : FVec Ideal S32x64 .f32) (oi oj : ℕ)
    (hs : S32x32x32.Slices ![oi, oj, 0] S30x30x32) : FVec Ideal S30x30x64 .f32 :=
  multiReduction (F := Ideal) .minimumf [2] S30x30x64 (summand P0 Pw oi oj hs) 0x7F800000#32 reduces_S30x30x32x64_S30x30x64 (.inl rfl) rfl

theorem redMax_apply (P0 : FVec Ideal S1x32x32x32 .f32) (Pw : FVec Ideal S32x64 .f32) (oi oj : ℕ)
    (hs : S32x32x32.Slices ![oi, oj, 0] S30x30x32) (hoi : oi ≤ 2) (hoj : oj ≤ 2) (y1 y2 : Fin 30) (y3 : Fin 64) :
    redMax P0 Pw oi oj hs (ix3 y1 y2 y3) = tapMax P0 Pw oi oj hoi hoj y1 y2 y3 :=
  Tap.max_apply P0 Pw oi oj _ hs _ _ _ _ _ _ _ _ y1 y2 y3 hoi hoj

theorem redMin_apply (P0 : FVec Ideal S1x32x32x32 .f32) (Pw : FVec Ideal S32x64 .f32) (oi oj : ℕ)
    (hs : S32x32x32.Slices ![oi, oj, 0] S30x30x32) (hoi : oi ≤ 2) (hoj : oj ≤ 2) (y1 y2 : Fin 30) (y3 : Fin 64) :
    redMin P0 Pw oi oj hs (ix3 y1 y2 y3) = tapMin P0 Pw oi oj hoi hoj y1 y2 y3 :=
  Tap.min_apply P0 Pw oi oj _ hs _ _ _ _ _ _ _ _ y1 y2 y3 hoi hoj

variable (P0 : FVec Ideal S1x32x32x32 .f32)

/-- Taps 0, 1, 2 (row offset 0): the body's maxima, as a tree of vector operations. -/
theorem pay6_eq (W0 W1 W2 : FVec Ideal S32x64 .f32) :
    k0_pay6 (F := Ideal) P0 W0 W1 W2 = maximumf (maximumf (redMax P0 W0 0 0 slices_S32x32x32_o0_0_0_S30x30x32) (redMax P0 W1 0 1 slices_S32x32x32_o0_1_0_S30x30x32)) (redMax P0 W2 0 2 slices_S32x32x32_o0_2_0_S30x30x32) := rfl

/-- Taps 0, 1, 2: the body's minima, as a tree of vector operations. -/
theorem pay7_eq (W0 W1 W2 : FVec Ideal S32x64 .f32) :
    k0_pay7 (F := Ideal) P0 W0 W1 W2 = minimumf (minimumf (redMin P0 W0 0 0 slices_S32x32x32_o0_0_0_S30x30x32) (redMin P0 W1 0 1 slices_S32x32x32_o0_1_0_S30x30x32)) (redMin P0 W2 0 2 slices_S32x32x32_o0_2_0_S30x30x32) := rfl

/-- Taps 3, 4, 5, 6 folded into a carried maximum `v`. -/
theorem pay14_eq (v : FVec Ideal S30x30x64 .f32) (W3 W4 W5 W6 : FVec Ideal S32x64 .f32) :
    k0_pay14 (F := Ideal) (k0_pay2 P0) v (k0_pay8 P0) (k0_pay9 W3) W4 W5 W6
      = maximumf (maximumf (maximumf (maximumf v (redMax P0 W3 1 0 slices_S32x32x32_o1_0_0_S30x30x32)) (redMax P0 W4 1 1 slices_S32x32x32_o1_1_0_S30x30x32)) (redMax P0 W5 1 2 slices_S32x32x32_o1_2_0_S30x30x32)) (redMax P0 W6 2 0 slices_S32x32x32_o2_0_0_S30x30x32) := rfl

/-- Taps 3, 4, 5, 6 folded into a carried minimum `v`. -/
theorem pay15_eq (v : FVec Ideal S30x30x64 .f32) (W3 W4 W5 W6 : FVec Ideal S32x64 .f32) :
    k0_pay15 (F := Ideal) (k0_pay2 P0) v (k0_pay8 P0) (k0_pay9 W3) W4 W5 W6
      = minimumf (minimumf (minimumf (minimumf v (redMin P0 W3 1 0 slices_S32x32x32_o1_0_0_S30x30x32)) (redMin P0 W4 1 1 slices_S32x32x32_o1_1_0_S30x30x32)) (redMin P0 W5 1 2 slices_S32x32x32_o1_2_0_S30x30x32)) (redMin P0 W6 2 0 slices_S32x32x32_o2_0_0_S30x30x32) := rfl

/-- Taps 7 and 8 folded into the carried maximum and minimum, the difference, and the unit axis put back. -/
theorem pay1_eq (vmax vmin : FVec Ideal S30x30x64 .f32) (W7 W8 : FVec Ideal S32x64 .f32) :
    k0_pay1 (F := Ideal) (k0_pay2 P0) vmax vmin (k0_pay16 (k0_pay2 P0)) W7 W8
      = shapeCast S1x30x30x64 (subf (maximumf (maximumf vmax (redMax P0 W7 2 1 slices_S32x32x32_o2_1_0_S30x30x32)) (redMax P0 W8 2 2 slices_S32x32x32_o2_2_0_S30x30x32))
          (minimumf (minimumf vmin (redMin P0 W7 2 1 slices_S32x32x32_o2_1_0_S30x30x32)) (redMin P0 W8 2 2 slices_S32x32x32_o2_2_0_S30x30x32))) shapeCasts_S30x30x64_S1x30x30x64 := rfl

/-- A vector maximum read at an index, from its operands read there. -/
theorem max2_apply {s : Shape} (a b : FVec Ideal s .f32) (j : s.Idx) {x y : EReal} (ha : a j = x) (hb : b j = y) :
    maximumf a b j = max x y := (maximumf_apply a b j).trans (congrArg₂ max ha hb)

/-- A vector minimum read at an index, from its operands read there. -/
theorem min2_apply {s : Shape} (a b : FVec Ideal s .f32) (j : s.Idx) {x y : EReal} (ha : a j = x) (hb : b j = y) :
    minimumf a b j = min x y := (minimumf_apply a b j).trans (congrArg₂ min ha hb)

/-- A vector difference read at an index, from its operands read there. -/
theorem sub2_apply {s : Shape} (a b : FVec Ideal s .f32) (j : s.Idx) {x y : EReal} (ha : a j = x) (hb : b j = y) :
    subf a b j = x - y := (subf_apply a b j).trans (congrArg₂ (· - ·) ha hb)

variable (y1 y2 : Fin 30) (y3 : Fin 64)

theorem pay6_apply (W0 W1 W2 : FVec Ideal S32x64 .f32) :
    k0_pay6 (F := Ideal) P0 W0 W1 W2 (ix3 y1 y2 y3)
      = max (max (tapMax P0 W0 0 0 (by decide) (by decide) y1 y2 y3) (tapMax P0 W1 0 1 (by decide) (by decide) y1 y2 y3)) (tapMax P0 W2 0 2 (by decide) (by decide) y1 y2 y3) :=
  (congrFun (pay6_eq P0 W0 W1 W2) (ix3 y1 y2 y3)).trans
    (max2_apply _ _ (ix3 y1 y2 y3) (max2_apply _ _ (ix3 y1 y2 y3) (redMax_apply P0 W0 0 0 slices_S32x32x32_o0_0_0_S30x30x32 (by decide) (by decide) y1 y2 y3) (redMax_apply P0 W1 0 1 slices_S32x32x32_o0_1_0_S30x30x32 (by decide) (by decide) y1 y2 y3)) (redMax_apply P0 W2 0 2 slices_S32x32x32_o0_2_0_S30x30x32 (by decide) (by decide) y1 y2 y3))

theorem pay7_apply (W0 W1 W2 : FVec Ideal S32x64 .f32) :
    k0_pay7 (F := Ideal) P0 W0 W1 W2 (ix3 y1 y2 y3)
      = min (min (tapMin P0 W0 0 0 (by decide) (by decide) y1 y2 y3) (tapMin P0 W1 0 1 (by decide) (by decide) y1 y2 y3)) (tapMin P0 W2 0 2 (by decide) (by decide) y1 y2 y3) :=
  (congrFun (pay7_eq P0 W0 W1 W2) (ix3 y1 y2 y3)).trans
    (min2_apply _ _ (ix3 y1 y2 y3) (min2_apply _ _ (ix3 y1 y2 y3) (redMin_apply P0 W0 0 0 slices_S32x32x32_o0_0_0_S30x30x32 (by decide) (by decide) y1 y2 y3) (redMin_apply P0 W1 0 1 slices_S32x32x32_o0_1_0_S30x30x32 (by decide) (by decide) y1 y2 y3)) (redMin_apply P0 W2 0 2 slices_S32x32x32_o0_2_0_S30x30x32 (by decide) (by decide) y1 y2 y3))

theorem pay14_apply (v : FVec Ideal S30x30x64 .f32) (W3 W4 W5 W6 : FVec Ideal S32x64 .f32) :
    k0_pay14 (F := Ideal) (k0_pay2 P0) v (k0_pay8 P0) (k0_pay9 W3) W4 W5 W6 (ix3 y1 y2 y3)
      = max (max (max (max (v (ix3 y1 y2 y3)) (tapMax P0 W3 1 0 (by decide) (by decide) y1 y2 y3)) (tapMax P0 W4 1 1 (by decide) (by decide) y1 y2 y3)) (tapMax P0 W5 1 2 (by decide) (by decide) y1 y2 y3)) (tapMax P0 W6 2 0 (by decide) (by decide) y1 y2 y3) :=
  (congrFun (pay14_eq P0 v W3 W4 W5 W6) (ix3 y1 y2 y3)).trans
    (max2_apply _ _ (ix3 y1 y2 y3) (max2_apply _ _ (ix3 y1 y2 y3) (max2_apply _ _ (ix3 y1 y2 y3) (max2_apply _ _ (ix3 y1 y2 y3) rfl (redMax_apply P0 W3 1 0 slices_S32x32x32_o1_0_0_S30x30x32 (by decide) (by decide) y1 y2 y3)) (redMax_apply P0 W4 1 1 slices_S32x32x32_o1_1_0_S30x30x32 (by decide) (by decide) y1 y2 y3)) (redMax_apply P0 W5 1 2 slices_S32x32x32_o1_2_0_S30x30x32 (by decide) (by decide) y1 y2 y3)) (redMax_apply P0 W6 2 0 slices_S32x32x32_o2_0_0_S30x30x32 (by decide) (by decide) y1 y2 y3))

theorem pay15_apply (v : FVec Ideal S30x30x64 .f32) (W3 W4 W5 W6 : FVec Ideal S32x64 .f32) :
    k0_pay15 (F := Ideal) (k0_pay2 P0) v (k0_pay8 P0) (k0_pay9 W3) W4 W5 W6 (ix3 y1 y2 y3)
      = min (min (min (min (v (ix3 y1 y2 y3)) (tapMin P0 W3 1 0 (by decide) (by decide) y1 y2 y3)) (tapMin P0 W4 1 1 (by decide) (by decide) y1 y2 y3)) (tapMin P0 W5 1 2 (by decide) (by decide) y1 y2 y3)) (tapMin P0 W6 2 0 (by decide) (by decide) y1 y2 y3) :=
  (congrFun (pay15_eq P0 v W3 W4 W5 W6) (ix3 y1 y2 y3)).trans
    (min2_apply _ _ (ix3 y1 y2 y3) (min2_apply _ _ (ix3 y1 y2 y3) (min2_apply _ _ (ix3 y1 y2 y3) (min2_apply _ _ (ix3 y1 y2 y3) rfl (redMin_apply P0 W3 1 0 slices_S32x32x32_o1_0_0_S30x30x32 (by decide) (by decide) y1 y2 y3)) (redMin_apply P0 W4 1 1 slices_S32x32x32_o1_1_0_S30x30x32 (by decide) (by decide) y1 y2 y3)) (redMin_apply P0 W5 1 2 slices_S32x32x32_o1_2_0_S30x30x32 (by decide) (by decide) y1 y2 y3)) (redMin_apply P0 W6 2 0 slices_S32x32x32_o2_0_0_S30x30x32 (by decide) (by decide) y1 y2 y3))

theorem pay1_apply (y0 : Fin 1) (vmax vmin : FVec Ideal S30x30x64 .f32) (W7 W8 : FVec Ideal S32x64 .f32) :
    k0_pay1 (F := Ideal) (k0_pay2 P0) vmax vmin (k0_pay16 (k0_pay2 P0)) W7 W8 (ix4 y0 y1 y2 y3)
      = max (max (vmax (ix3 y1 y2 y3)) (tapMax P0 W7 2 1 (by decide) (by decide) y1 y2 y3)) (tapMax P0 W8 2 2 (by decide) (by decide) y1 y2 y3)
        - min (min (vmin (ix3 y1 y2 y3)) (tapMin P0 W7 2 1 (by decide) (by decide) y1 y2 y3)) (tapMin P0 W8 2 2 (by decide) (by decide) y1 y2 y3) := by
  refine (congrFun (pay1_eq P0 vmax vmin W7 W8) (ix4 y0 y1 y2 y3)).trans ?_
  refine (shapeCast_apply _ _ (ix4 y0 y1 y2 y3) (ix3 y1 y2 y3) (by
    rw [Shape.rowMajor_val_three, Shape.rowMajor_val_four]
    show (y1.val * 30 + y2.val) * 64 + y3.val = ((y0.val * 30 + y1.val) * 30 + y2.val) * 64 + y3.val
    have : y0.val < 1 := y0.isLt
    omega)).trans ?_
  exact sub2_apply _ _ (ix3 y1 y2 y3)
    (max2_apply _ _ (ix3 y1 y2 y3) (max2_apply _ _ (ix3 y1 y2 y3) rfl (redMax_apply P0 W7 2 1 slices_S32x32x32_o2_1_0_S30x30x32 (by decide) (by decide) y1 y2 y3)) (redMax_apply P0 W8 2 2 slices_S32x32x32_o2_2_0_S30x30x32 (by decide) (by decide) y1 y2 y3))
    (min2_apply _ _ (ix3 y1 y2 y3) (min2_apply _ _ (ix3 y1 y2 y3) rfl (redMin_apply P0 W7 2 1 slices_S32x32x32_o2_1_0_S30x30x32 (by decide) (by decide) y1 y2 y3)) (redMin_apply P0 W8 2 2 slices_S32x32x32_o2_2_0_S30x30x32 (by decide) (by decide) y1 y2 y3))

/-- THE STORED VALUE at block index (y₀, y₁, y₂, y₃), for any image block `P0` and any nine weight chunks `PW`: over the nine
    taps (tap `t` at offset (t / 3, t % 3) against chunk `PW t`), the largest tap maximum minus the smallest tap minimum. -/
theorem payload_apply (PW : Fin 9 → FVec Ideal S32x64 .f32) (y0 : Fin 1) :
    k0_pay1 (F := Ideal) (k0_pay2 P0) (k0_pay14 (k0_pay2 P0) (k0_pay6 P0 (PW 0) (PW 1) (PW 2)) (k0_pay8 P0) (k0_pay9 (PW 3)) (PW 4) (PW 5) (PW 6))
        (k0_pay15 (k0_pay2 P0) (k0_pay7 P0 (PW 0) (PW 1) (PW 2)) (k0_pay8 P0) (k0_pay9 (PW 3)) (PW 4) (PW 5) (PW 6))
        (k0_pay16 (k0_pay2 P0)) (PW 7) (PW 8) (ix4 y0 y1 y2 y3)
      = chain9 max (fun t => tapMax P0 (PW t) (t.val / 3) (t.val % 3) (by have := t.isLt; omega) (by have := t.isLt; omega) y1 y2 y3)
        - chain9 min (fun t => tapMin P0 (PW t) (t.val / 3) (t.val % 3) (by have := t.isLt; omega) (by have := t.isLt; omega) y1 y2 y3) := by
  rw [pay1_apply, pay14_apply, pay15_apply, pay6_apply, pay7_apply]
  rfl

/-- The weight rows tap `k` loads: rows 32 k … 32 k + 31, every filter. -/
def wrect (k : Fin 9) : Rect S288x64 :=
  Rect.unit (s := S288x64) ![32 * k.val, 0] S32x64.size (fun a => by
    match a with
    | ⟨0, _⟩ => show 32 * k.val + 32 ≤ 288; have := k.isLt; omega
    | ⟨1, _⟩ => show 0 + 64 ≤ 64; omega)

/-! ## What point `t` writes back -/

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The image block and the weight block the body finds at point `t`, and the two arrays as the region finds them. -/
abbrev xblk (c : Dev nD) (t : Fin cfg0.N) : FVec Ideal S1x32x32x32 .f32 := iblk m c 0 t
abbrev wblk (c : Dev nD) (t : Fin cfg0.N) : Vec Ideal S288x64 .f32 := iblk m c 1 t
abbrev xarr (c : Dev nD) : FVec Ideal S8x32x32x32 .f32 := V m c main_arg0
abbrev warr (c : Dev nD) : FVec Ideal S288x64 .f32 := V m c main_v0
/-- The weight chunk tap `k` loads from the weight block. -/
abbrev wchunk (c : Dev nD) (t : Fin cfg0.N) (k : Fin 9) : FVec Ideal S32x64 .f32 :=
  View.ld (wblk m c t) (wrect k)

/-- The printed index maps over the grid: the image and output blocks are batch element `t`, the weight block is the
    whole array at every point. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The grid has eight points. -/
theorem lt8 (t : Fin cfg0.N) : t.val < 8 := t.isLt

/-- The image block at point `t` is batch element `t` of the image. -/
theorem xblk_apply (c : Dev nD) (t : Fin cfg0.N) (a : Fin 1) (r s ch : Fin 32) :
    xblk m c t (ix4 a r s ch) = xarr m c (ix4 (⟨t.val, lt8 t⟩ : Fin 8) r s ch) := by
  obtain ⟨e00, e01, e02, e03, -⟩ := idx_facts t
  show V m c main_arg0 (((cfg0.win 0).blk t).view.emb (ix4 a r s ch)) = V m c main_arg0 _
  refine congrArg _ (funext fun d => Fin.ext ?_)
  match d with
  | ⟨0, _⟩ => show win0_0.index t (0 : Fin 4) * 1 + 1 * a.val = t.val; have := a.isLt; omega
  | ⟨1, _⟩ => show win0_0.index t (1 : Fin 4) * 32 + 1 * r.val = r.val; omega
  | ⟨2, _⟩ => show win0_0.index t (2 : Fin 4) * 32 + 1 * s.val = s.val; omega
  | ⟨3, _⟩ => show win0_0.index t (3 : Fin 4) * 32 + 1 * ch.val = ch.val; omega

/-- The rows tap `k` loads from the weight block are rows 32 k … 32 k + 31 of the weight array. -/
theorem wld_apply (c : Dev nD) (t : Fin cfg0.N) (k : Fin 9) (ch : Fin 32) (f : Fin 64) :
    wchunk m c t k (ix2 ch f) = warr m c (ix2 (blockIdx h288 k ch) f) := by
  obtain ⟨-, -, -, -, e10, e11, -⟩ := idx_facts t
  show V m c main_v0 (((cfg0.win 1).blk t).view.emb ((wrect k).emb (ix2 ch f))) = V m c main_v0 _
  refine congrArg _ (funext fun d => Fin.ext ?_)
  match d with
  | ⟨0, _⟩ => show win0_1.index t (0 : Fin 2) * 288 + 1 * (32 * k.val + 1 * ch.val) = k.val * 32 + ch.val; omega
  | ⟨1, _⟩ => show win0_1.index t (1 : Fin 2) * 64 + 1 * (0 + 1 * f.val) = f.val; omega

/-- Tap `k` of the body at point `t` is tap `k` of the specification at batch element `t`: its maximum, -/
theorem tapMax_eq (c : Dev nD) (t : Fin cfg0.N) (k : Fin 9) (y1 y2 : Fin 30) (y3 : Fin 64) :
    tapMax (xblk m c t) (wchunk m c t k) (k.val / 3) (k.val % 3) (by have := k.isLt; omega) (by have := k.isLt; omega) y1 y2 y3
      = (Finset.univ : Finset (Fin 32)).fold max negInf (entry (xarr m c) (warr m c) (⟨t.val, lt8 t⟩ : Fin 8) y1 y2 y3 k) :=
  congrArg (fun g => (Finset.univ : Finset (Fin 32)).fold max negInf g)
    (funext fun ch => congrArg₂ (· + ·) (xblk_apply m c t _ _ _ ch) (wld_apply m c t k ch y3))

/-- and its minimum. -/
theorem tapMin_eq (c : Dev nD) (t : Fin cfg0.N) (k : Fin 9) (y1 y2 : Fin 30) (y3 : Fin 64) :
    tapMin (xblk m c t) (wchunk m c t k) (k.val / 3) (k.val % 3) (by have := k.isLt; omega) (by have := k.isLt; omega) y1 y2 y3
      = (Finset.univ : Finset (Fin 32)).fold min posInf (entry (xarr m c) (warr m c) (⟨t.val, lt8 t⟩ : Fin 8) y1 y2 y3 k) :=
  congrArg (fun g => (Finset.univ : Finset (Fin 32)).fold min posInf g)
    (funext fun ch => congrArg₂ (· + ·) (xblk_apply m c t _ _ _ ch) (wld_apply m c t k ch y3))

/-- THE BLOCK THE BODY LEAVES at point `t`: at (y₀, y₁, y₂, y₃) the specification at batch element `t`, position (y₁, y₂),
    filter y₃. -/
theorem out_eq (c : Dev nD) (t : Fin cfg0.N) :
    out0_2 (F := Ideal) (xblk m c t) (wblk m c t)
      = fun y : S1x30x30x64.Idx => G (xarr m c) (warr m c) (ix4 (⟨t.val, lt8 t⟩ : Fin 8) (y 1) (y 2) (y 3)) := by
  unfold out0_2
  rw [View.canon_unit_zero hz4]
  simp only [View.ld_unit_zero (S := S1x32x32x32) hz4]
  funext y
  obtain ⟨y0, y1, y2, y3, rfl⟩ : ∃ (y0 : Fin 1) (y1 y2 : Fin 30) (y3 : Fin 64), y = ix4 y0 y1 y2 y3 :=
    ⟨y 0, y 1, y 2, y 3, eq_ix4 y⟩
  refine Eq.trans (payload_apply (xblk m c t) y1 y2 y3 (wchunk m c t) y0) ?_
  exact congrArg₂ (· - ·)
    (congrArg (chain9 max) (funext fun k => tapMax_eq m c t k y1 y2 y3))
    (congrArg (chain9 min) (funext fun k => tapMin_eq m c t k y1 y2 y3))

/-- WHAT POINT `t` WRITES BACK is block `t` of the specification of the image and the weight array as the region finds them:
    the output block at point `t` is batch element `t` of the output array. -/
theorem flushed_eq (c : Dev nD) (t : Fin cfg0.N) :
    (dats m 0 c).flushed 2 t = ((cfg0.win 2).blk t).view.read (Elt Ideal) (G (xarr m c) (warr m c)) := by
  rw [ValueB.flushed2, show out0_2 (iblk m c 0 t) (iblk m c 1 t) = _ from out_eq m c t]
  obtain ⟨-, -, -, -, -, -, e20, e21, e22, e23⟩ := idx_facts t
  funext j
  have hj0 : (j 0).val < 1 := (j 0).isLt
  have hj1 : (j 1).val < 30 := (j 1).isLt
  have hj2 : (j 2).val < 30 := (j 2).isLt
  have hj3 : (j 3).val < 64 := (j 3).isLt
  show G (xarr m c) (warr m c) (ix4 (⟨t.val, lt8 t⟩ : Fin 8) (⟨(j 1).val, hj1⟩ : Fin 30) (⟨(j 2).val, hj2⟩ : Fin 30) (⟨(j 3).val, hj3⟩ : Fin 64))
    = G (xarr m c) (warr m c) (((cfg0.win 2).blk t).view.emb j)
  refine congrArg _ (funext fun a => Fin.ext ?_)
  match a with
  | ⟨0, _⟩ => show t.val = win0_2.index t (0 : Fin 4) * 1 + 1 * (j 0).val; omega
  | ⟨1, _⟩ => show (j 1).val = win0_2.index t (1 : Fin 4) * 30 + 1 * (j 1).val; omega
  | ⟨2, _⟩ => show (j 2).val = win0_2.index t (2 : Fin 4) * 30 + 1 * (j 2).val; omega
  | ⟨3, _⟩ => show (j 3).val = win0_2.index t (3 : Fin 4) * 64 + 1 * (j 3).val; omega

/-! ## The output array after the run -/

/-- An index of the output array is in point `t`'s block iff each coordinate is in the block's range on its axis. -/
theorem mem_blk (t : Fin cfg0.N) (i : S8x30x30x64.Idx) :
    i ∈ ((cfg0.win 2).blk t).view.set ↔ ∀ a : Fin 4, win0_2.index t a * S1x30x30x64.size a ≤ (i a).val
      ∧ (i a).val < win0_2.index t a * S1x30x30x64.size a + S1x30x30x64.size a := by
  show i ∈ ((View.whole main_v1).slice (win0_2.rect t)).set ↔ _
  rw [View.set_slice_whole, Rect.mem_set_unit]
  exact Iff.rfl

/-- The eight blocks tile the output array: an index lies in the block of the point its batch coordinate names. -/
theorem cover (i : S8x30x30x64.Idx) :
    ∃ t : Fin cfg0.N, (cfg0.win 2).flush t = true ∧ i ∈ ((cfg0.win 2).blk t).view.set := by
  have h0 : (i 0).val < 8 := (i 0).isLt
  have h1 : (i 1).val < 30 := (i 1).isLt
  have h2 : (i 2).val < 30 := (i 2).isLt
  have h3 : (i 3).val < 64 := (i 3).isLt
  obtain ⟨-, -, -, -, -, -, e20, e21, e22, e23⟩ := idx_facts ⟨(i 0).val, h0⟩
  have e20' : win0_2.index ⟨(i 0).val, h0⟩ (0 : Fin 4) = (i 0).val := e20
  refine ⟨⟨(i 0).val, h0⟩, flush0_2 _, ?_⟩
  rw [mem_blk]
  intro a
  match a with
  | ⟨0, _⟩ =>
    show win0_2.index ⟨(i 0).val, h0⟩ (0 : Fin 4) * 1 ≤ (i 0).val ∧ (i 0).val < win0_2.index ⟨(i 0).val, h0⟩ (0 : Fin 4) * 1 + 1
    omega
  | ⟨1, _⟩ =>
    show win0_2.index ⟨(i 0).val, h0⟩ (1 : Fin 4) * 30 ≤ (i 1).val ∧ (i 1).val < win0_2.index ⟨(i 0).val, h0⟩ (1 : Fin 4) * 30 + 30
    omega
  | ⟨2, _⟩ =>
    show win0_2.index ⟨(i 0).val, h0⟩ (2 : Fin 4) * 30 ≤ (i 2).val ∧ (i 2).val < win0_2.index ⟨(i 0).val, h0⟩ (2 : Fin 4) * 30 + 30
    omega
  | ⟨3, _⟩ =>
    show win0_2.index ⟨(i 0).val, h0⟩ (3 : Fin 4) * 64 ≤ (i 3).val ∧ (i 3).val < win0_2.index ⟨(i 0).val, h0⟩ (3 : Fin 4) * 64 + 64
    omega

/-- THE OUTPUT ARRAY after the run is the specification of the image and the weight array as the region finds them. -/
theorem final (c : Dev nD) : (dats m 0 c).arrAt 2 cfg0.N = G (xarr m c) (warr m c) :=
  (dats m 0 c).arrAt_eq_of_cover 2 (G (xarr m c) (warr m c)) (fun t _ => flushed_eq m c t) cover

/-- The weight array the region finds is the host's reshape of the weights argument to [288, 64]. -/
theorem warr_eq (c : Dev nD) :
    warr m c = shapeCast S288x64 (m ((c : Thread nD τ).loc main_arg1)) shapeCasts_S1x1x1x288x64_S288x64 := by
  show V m c main_v0 = _
  dsimp only [V, hostOps0]; after_results; rfl

/-- THE RUN, READ: the result array ends at the specification of the image argument and the reshaped weights argument;
    the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0))
            (shapeCast S288x64 (m ((c : Thread nD τ).loc main_arg1)) shapeCasts_S1x1x1x288x64_S288x64)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((final m c).trans (congrArg₂ G (V_main_arg0 m c) (warr_eq m c))), (h c).2⟩)
    (ValueB.run_blocks m ρ)

end Cert.KernelIdeal.KValue

end
-- ==== Proof.RefValue.lean ====
/-
  The reference computes the specification.

  The reference lays the nine offset windows of the image side by side along the channel axis — window `t = 3 · i + j`
  is `x[:, i : i + 30, j : j + 30, :]`, so entry `k = 32 · t + c` of the joined axis is channel `c` of window `t` —, adds
  the weights `w[k, f]`, and takes the maximum and the minimum over all 288 entries at once, each one fold over the
  joined axis. A fold of `max` (of `min`) over 288 = 9 · 32 entries is the maximum (minimum) of the nine folds over
  the blocks of 32, and block `t` is exactly tap `t` of the specification.
-/
import proofs.«164949_j21947282883034_1_alg».proof.Proof.Gen.ReferenceIdeal.Read
import proofs.«164949_j21947282883034_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open FoldBlocks Cert.TropConv

variable (x0 : (⟨S8x32x32x32, .f32⟩ : BufTy).Contents (Elt Ideal)) (x1 : (⟨S1x1x1x288x64, .f32⟩ : BufTy).Contents (Elt Ideal))

/-- The nine offset windows of the image, in the order the reference joins them. -/
def windows : Fin 9 → (S8x30x30x32.Idx → EReal) :=
  ![val_main_v0 (F := Ideal) x0, val_main_v1 (F := Ideal) x0, val_main_v2 (F := Ideal) x0, val_main_v3 (F := Ideal) x0,
    val_main_v4 (F := Ideal) x0, val_main_v5 (F := Ideal) x0, val_main_v6 (F := Ideal) x0, val_main_v7 (F := Ideal) x0,
    val_main_v8 (F := Ideal) x0]

/-- Window `t` at (b, p, q, c) is the image at row `p + t / 3`, column `q + t % 3`. -/
theorem windows_apply (t : Fin 9) (b : Fin 8) (p q : Fin 30) (c : Fin 32) :
    windows x0 t (ix4 b p q c)
      = x0 (ix4 b (⟨p.val + t.val / 3, by have := p.isLt; have := t.isLt; omega⟩ : Fin 32)
          (⟨q.val + t.val % 3, by have := q.isLt; have := t.isLt; omega⟩ : Fin 32) c) := by
  rcases fin9_cases t with rfl | rfl | rfl | rfl | rfl | rfl | rfl | rfl | rfl
  · exact (val_main_v0_apply x0 _).trans (congrArg x0 (funext fun a => Fin.ext (by
      match a with
      | ⟨0, _⟩ => rfl
      | ⟨1, _⟩ => show p.val = p.val + 0; omega
      | ⟨2, _⟩ => show q.val = q.val + 0; omega
      | ⟨3, _⟩ => rfl)))
  · exact (val_main_v1_apply x0 _).trans (congrArg x0 (funext fun a => Fin.ext (by
      match a with
      | ⟨0, _⟩ => rfl
      | ⟨1, _⟩ => show p.val = p.val + 0; omega
      | ⟨2, _⟩ => show 1 + q.val = q.val + 1; omega
      | ⟨3, _⟩ => rfl)))
  · exact (val_main_v2_apply x0 _).trans (congrArg x0 (funext fun a => Fin.ext (by
      match a with
      | ⟨0, _⟩ => rfl
      | ⟨1, _⟩ => show p.val = p.val + 0; omega
      | ⟨2, _⟩ => show 2 + q.val = q.val + 2; omega
      | ⟨3, _⟩ => rfl)))
  · exact (val_main_v3_apply x0 _).trans (congrArg x0 (funext fun a => Fin.ext (by
      match a with
      | ⟨0, _⟩ => rfl
      | ⟨1, _⟩ => show 1 + p.val = p.val + 1; omega
      | ⟨2, _⟩ => show q.val = q.val + 0; omega
      | ⟨3, _⟩ => rfl)))
  · exact (val_main_v4_apply x0 _).trans (congrArg x0 (funext fun a => Fin.ext (by
      match a with
      | ⟨0, _⟩ => rfl
      | ⟨1, _⟩ => show 1 + p.val = p.val + 1; omega
      | ⟨2, _⟩ => show 1 + q.val = q.val + 1; omega
      | ⟨3, _⟩ => rfl)))
  · exact (val_main_v5_apply x0 _).trans (congrArg x0 (funext fun a => Fin.ext (by
      match a with
      | ⟨0, _⟩ => rfl
      | ⟨1, _⟩ => show 1 + p.val = p.val + 1; omega
      | ⟨2, _⟩ => show 2 + q.val = q.val + 2; omega
      | ⟨3, _⟩ => rfl)))
  · exact (val_main_v6_apply x0 _).trans (congrArg x0 (funext fun a => Fin.ext (by
      match a with
      | ⟨0, _⟩ => rfl
      | ⟨1, _⟩ => show 2 + p.val = p.val + 2; omega
      | ⟨2, _⟩ => show q.val = q.val + 0; omega
      | ⟨3, _⟩ => rfl)))
  · exact (val_main_v7_apply x0 _).trans (congrArg x0 (funext fun a => Fin.ext (by
      match a with
      | ⟨0, _⟩ => rfl
      | ⟨1, _⟩ => show 2 + p.val = p.val + 2; omega
      | ⟨2, _⟩ => show 1 + q.val = q.val + 1; omega
      | ⟨3, _⟩ => rfl)))
  · exact (val_main_v8_apply x0 _).trans (congrArg x0 (funext fun a => Fin.ext (by
      match a with
      | ⟨0, _⟩ => rfl
      | ⟨1, _⟩ => show 2 + p.val = p.val + 2; omega
      | ⟨2, _⟩ => show 2 + q.val = q.val + 2; omega
      | ⟨3, _⟩ => rfl)))

/-- The joined patches at entry `32 · t + c` are window `t` at channel `c`. -/
theorem patches_apply (b : Fin 8) (p q : Fin 30) (t : Fin 9) (c : Fin 32) :
    val_main_v9 (F := Ideal) x0 (ix4 b p q (blockIdx h288 t c)) = windows x0 t (ix4 b p q c) := by
  unfold val_main_v9
  show concatenate S8x30x30x288 3 (List.ofFn fun n : Fin 9 => (⟨S8x30x30x32, windows x0 n⟩ : (s : Shape) × (s.Idx → EReal))) _
    (ix4 b p q (blockIdx h288 t c)) = _
  exact concatenate_ofFn_apply (t := S8x30x30x288) (s₁ := S8x30x30x32) (3 : Fin 4) (windows x0) _ rfl 32 rfl
    (ix4 b p q (blockIdx h288 t c) : S8x30x30x288.Idx) t
    (by show (t.val * 32 + c.val) / 32 = t.val; have := c.isLt; omega) (ix4 b p q c)
    (by show c.val = (t.val * 32 + c.val) % 32; have := c.isLt; omega)
    (fun a ha => by
      match a with
      | ⟨0, _⟩ => rfl
      | ⟨1, _⟩ => rfl
      | ⟨2, _⟩ => rfl
      | ⟨3, _⟩ => exact absurd (Fin.ext rfl) ha)

/-- The summed tensor at (b, p, q, k, f): patch entry `k` plus its weight for filter `f`. -/
theorem sum_apply (b : Fin 8) (p q : Fin 30) (k : Fin 288) (f : Fin 64) :
    val_main_v15 (F := Ideal) x0 x1 (ix5 b p q k f)
      = val_main_v9 (F := Ideal) x0 (ix4 b p q k) + val_main_v11 (F := Ideal) x1 (ix2 k f) := by
  rw [val_main_v15_apply, val_main_v13_apply, val_main_v10_apply, val_main_v14_apply, val_main_v12_apply]
  have e1 : idx_main_v10 (idx_main_v13 (ix5 b p q k f)) = ix4 b p q k :=
    funext fun a => Fin.ext (by match a with | ⟨0, _⟩ => rfl | ⟨1, _⟩ => rfl | ⟨2, _⟩ => rfl | ⟨3, _⟩ => rfl)
  have e2 : idx_main_v12 (idx_main_v14 (ix5 b p q k f)) = ix2 k f :=
    funext fun a => Fin.ext (by match a with | ⟨0, _⟩ => rfl | ⟨1, _⟩ => rfl)
  rw [e1, e2]; rfl

/-- The reduced axis is axis 3 of the summed tensor. -/
theorem hred : S8x30x30x288x64.Reduces [3] S8x30x30x64 := by decide

/-- Entry `k` inserted into (b, p, q, f) on axis 3. -/
theorem lift_eq (b : Fin 8) (p q : Fin 30) (f : Fin 64) (k : Fin 288) : hred.lift (ix4 b p q f) k = ix5 b p q k f :=
  funext fun a => Fin.ext (by match a with | ⟨0, _⟩ => rfl | ⟨1, _⟩ => rfl | ⟨2, _⟩ => rfl | ⟨3, _⟩ => rfl | ⟨4, _⟩ => rfl)

/-- Entry `c` of block `t` of the summed tensor's joined axis is entry `c` of tap `t`. -/
theorem block_entry (b : Fin 8) (p q : Fin 30) (f : Fin 64) (t : Fin 9) (c : Fin 32) :
    (val_main_v15 (F := Ideal) x0 x1 ∘ hred.lift (ix4 b p q f)) (blockIdx h288 t c)
      = entry x0 (val_main_v11 (F := Ideal) x1) b p q f t c := by
  refine Eq.trans (congrArg (val_main_v15 (F := Ideal) x0 x1) (lift_eq b p q f (blockIdx h288 t c))) ?_
  rw [sum_apply, patches_apply, windows_apply]; rfl

/-- The reference's maximum over the joined axis is the maximum tap by tap. -/
theorem max_eq (b : Fin 8) (p q : Fin 30) (f : Fin 64) :
    val_main_v16 (F := Ideal) x0 x1 (ix4 b p q f) = tropMax x0 (val_main_v11 (F := Ideal) x1) b p q f := by
  unfold val_main_v16
  rw [Host.reduce_eq_fold_single FloatOps.maximumf _ _ reducesTo_S8x30x30x288x64_S8x30x30x64_d3 hred h_S_ (ix4 b p q f)]
  refine (fold_max_nine_blocks h288 _ (val_main_v15 (F := Ideal) x0 x1 ∘ hred.lift (ix4 b p q f))).trans ?_
  unfold tropMax
  exact congrArg (chain9 max) (funext fun t => congrArg (fun g => (Finset.univ : Finset (Fin 32)).fold max _ g)
    (funext fun c => block_entry x0 x1 b p q f t c))

/-- The reference's minimum over the joined axis is the minimum tap by tap. -/
theorem min_eq (b : Fin 8) (p q : Fin 30) (f : Fin 64) :
    val_main_v17 (F := Ideal) x0 x1 (ix4 b p q f) = tropMin x0 (val_main_v11 (F := Ideal) x1) b p q f := by
  unfold val_main_v17
  rw [Host.reduce_eq_fold_single FloatOps.minimumf _ _ reducesTo_S8x30x30x288x64_S8x30x30x64_d3 hred h_S_ (ix4 b p q f)]
  refine (fold_min_nine_blocks h288 _ (val_main_v15 (F := Ideal) x0 x1 ∘ hred.lift (ix4 b p q f))).trans ?_
  unfold tropMin
  exact congrArg (chain9 min) (funext fun t => congrArg (fun g => (Finset.univ : Finset (Fin 32)).fold min _ g)
    (funext fun c => block_entry x0 x1 b p q f t c))

/-- THE REFERENCE'S RESULT is the specification of the image and the reshaped weights. -/
theorem result_eq : val_main_v18 (F := Ideal) x0 x1 = G x0 (val_main_v11 (F := Ideal) x1) := by
  funext o
  obtain ⟨b, p, q, f, rfl⟩ : ∃ (b : Fin 8) (p q : Fin 30) (f : Fin 64), o = ix4 b p q f := ⟨o 0, o 1, o 2, o 3, eq_ix4 o⟩
  rw [val_main_v18_apply, max_eq, min_eq]; rfl

end Cert.ReferenceIdeal.RefValue

end
-- ==== Proof.lean ====
/-
  The tropical 3 × 3 convolution kernel against its jnp reference, over the extended reals.

  Both programs compute, at output position (b, p, q) and filter f,
      max_k (patch[k] + w[k, f])  −  min_k (patch[k] + w[k, f]),
  where the patch has the 288 entries `x[b, p + i, q + j, c]`, `k = 32 · (3 · i + j) + c`. The kernel takes the nine
  taps (i, j) one at a time — the image window at that offset against 32 rows of the weights, reduced over the channels with
  `max` from −∞ and with `min` from +∞ — and folds the nine results with `max` and `min`; the reference joins the nine windows
  along the channel axis and takes one maximum and one minimum over all 288 entries. A fold of `max` (of `min`) over nine
  blocks is the fold of the blocks' folds: `max` and `min` are determined by their bounds, so no arithmetic on the entries is
  used, and in particular nothing is asked of the inputs — the precondition is never opened. The sums `patch[k] + w[k, f]`
  and the final difference are the same expressions of the same operands in both programs. The weights reach both
  programs through the same reshape to [288, 64].

  The idealization rewrote no operation of the kernel, so `preserves` has nothing to state. The frames of the two kernel
  programs are the generated ones; the reference's frame is its generated run with the result dropped.
-/
import proofs.«164949_j21947282883034_1_alg».proof.Defs
import proofs.«164949_j21947282883034_1_alg».proof.Proof.Gen.Kernel
import proofs.«164949_j21947282883034_1_alg».proof.Proof.Gen.Kernel.Skeleton
import proofs.«164949_j21947282883034_1_alg».proof.Proof.Gen.Kernel.Launch
import proofs.«164949_j21947282883034_1_alg».proof.Proof.Gen.Kernel.Points
import proofs.«164949_j21947282883034_1_alg».proof.Proof.Gen.Kernel.Frame
import proofs.«164949_j21947282883034_1_alg».proof.Proof.Gen.KernelIdeal
import proofs.«164949_j21947282883034_1_alg».proof.Proof.Gen.KernelIdeal.Skeleton
import proofs.«164949_j21947282883034_1_alg».proof.Proof.Gen.KernelIdeal.Launch
import proofs.«164949_j21947282883034_1_alg».proof.Proof.Gen.KernelIdeal.Points
import proofs.«164949_j21947282883034_1_alg».proof.Proof.Gen.KernelIdeal.Frame
import proofs.«164949_j21947282883034_1_alg».proof.Proof.Gen.ReferenceIdeal
import proofs.«164949_j21947282883034_1_alg».proof.Proof.Gen.Pre_finite_inputs
import proofs.«164949_j21947282883034_1_alg».proof.Proof.Gen.ReferenceIdeal.Run
import proofs.«164949_j21947282883034_1_alg».proof.Proof.Gen.ReferenceIdeal.Read
import proofs.«164949_j21947282883034_1_alg».proof.Proof.KernelValue
import proofs.«164949_j21947282883034_1_alg».proof.Proof.RefValue
import Idealize.ShloMosaic.Adequacy
import Idealize.ShloMosaic.Init

noncomputable section

namespace Cert.Proof

open Idealize.ShloMosaic Idealize.SL.Sem

/-- The reference terminates without a fault and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the image and the weights, the kernel's result array and the reference's both end at the
    specification `G` of the image and the weights reshaped to [288, 64]. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
